-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x800000 : Shape := ⟨2, ![2, 800000]⟩
abbrev S64x64 : Shape := ⟨2, ![64, 64]⟩
abbrev S64 : Shape := ⟨1, ![64]⟩
abbrev S2x64 : Shape := ⟨2, ![2, 64]⟩
abbrev S2 : Shape := ⟨1, ![2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S2x64 : S_.BroadcastsInDim S2x64 (![] : Fin 0 → Fin S2x64.rank)
  reducesTo_S2x64_S_d0_1 : S2x64.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2x64 .f32) (main_arg6 : FVec F S2 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S2x64 .f32 := Host.absf main_arg5
  let main_cst_6 : FVec F S_ .f32 := constant S_ .f32 0x7F800000#32
  let main_v20 : FVec F S2x64 .f32 := broadcastInDim S2x64 ![] bcast_S_S2x64 main_cst_6
  let main_v21 : IVec S2x64 1 := cmpf .olt main_v19 main_v20
  let main_c_7 : IVec S_ 1 := constantI S_ 1 1#1
  let main_v22 : IVec S_ 1 := (fun x v => Host.reduce IntOp.andi x v reducesTo_S2x64_S_d0_1 h_S_) main_v21 main_c_7
  let main_v23 : IVec S_ 1 := andi main_v18 main_v22
  let main_v24 : FVec F S2 .f32 := Host.absf main_arg6
  let main_cst_8 : FVec F S_ .f32 := constant S_ .f32 0x7F800000#32
  let main_v25 : FVec F S2 .f32 := broadcastInDim S2 ![] bcast_S_S2 main_cst_8
  let main_v26 : IVec S2 1 := cmpf .olt main_v24 main_v25
  let main_c_9 : IVec S_ 1 := constantI S_ 1 1#1
  let main_v27 : IVec S_ 1 := (fun x v => Host.reduce IntOp.andi x v reducesTo_S2_S_d0 h_S_) main_v26 main_c_9
  let main_v28 : IVec S_ 1 := andi main_v23 main_v27
  main_v28

def fn {F : FTy → Type} [FloatOps F] (main_arg0 : FVec F S100000x64 .f32) (main_arg1 : IVec S2x800000 32) (main_arg2 : FVec F S64x64 .f32) (main_arg3 : FVec F S64 .f32) (main_arg4 : FVec F S64x64 .f32) (main_arg5 : FVec F S2x64 .f32) (main_arg6 : FVec F S2 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_v13 main_v16
-- ==== Kernel.lean ====
abbrev S100000x64 : Shape := ⟨2, ![100000, 64]⟩
abbrev S2x800000 : Shape := ⟨2, ![2, 800000]⟩
abbrev S64x64 : Shape := ⟨2, ![64, 64]⟩
abbrev S64 : Shape := ⟨1, ![64]⟩
abbrev S2x64 : Shape := ⟨2, ![2, 64]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S100000 : Shape := ⟨1, ![100000]⟩
abbrev S100000x1 : Shape := ⟨2, ![100000, 1]⟩
abbrev S1x64 : Shape := ⟨2, ![1, 64]⟩
abbrev S1x2 : Shape := ⟨2, ![1, 2]⟩
abbrev S100000x2 : Shape := ⟨2, ![100000, 2]⟩
abbrev S5000x64 : Shape := ⟨2, ![5000, 64]⟩
abbrev S5000x2 : Shape := ⟨2, ![5000, 2]⟩
abbrev S64x2 : Shape := ⟨2, ![64, 2]⟩

abbrev nBuf : Space → Nat
  | .hbm => 39
  | .vmem => 11
  | .smem => 0
  | _ => 0

abbrev bufTy : (tb : Table) → Fin (tcTables nBuf tb) → BufTy
  | .hbm, ⟨0, _⟩ => ⟨S100000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S2x64, .f32⟩
  | .hbm, ⟨6, _⟩ => ⟨S2, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x64, .f32⟩
  | .hbm, ⟨20, _⟩ => ⟨S_, .f32⟩
  | .hbm, ⟨21, _⟩ => ⟨S100000x64, .f32⟩
  | .hbm, ⟨22, _⟩ => ⟨S800000x1, .i32⟩
  | .hbm, ⟨23, _⟩ => ⟨S100000x64, .f32⟩
  | .hbm, ⟨24, _⟩ => ⟨S_, .f32⟩
  | .hbm, ⟨25, _⟩ => ⟨S800000, .f32⟩
  | .hbm, ⟨26, _⟩ => ⟨S_, .f32⟩
  | .hbm, ⟨27, _⟩ => ⟨S100000, .f32⟩
  | .hbm, ⟨28, _⟩ => ⟨S800000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x64, .f32⟩
  | .hbm, ⟨35, _⟩ => ⟨S100000x64, .f32⟩
  | .hbm, ⟨36, _⟩ => ⟨S1x64, .f32⟩
  | .hbm, ⟨37, _⟩ => ⟨S1x2, .f32⟩
  | .hbm, ⟨38, _⟩ => ⟨S100000x2, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S2x64, .f32⟩
  | .local _ .vmem, ⟨8, _⟩ => ⟨S1x2, .f32⟩
  | .local _ .vmem, ⟨9, _⟩ => ⟨S5000x2, .f32⟩
  | .local _ .vmem, ⟨10, _⟩ => ⟨S5000x2, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x2 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S64_S1x64 : S64.ShapeCasts S1x64
  shapeCasts_S2_S1x2 : S2.ShapeCasts S1x2
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S2x64_S2x64_0_0 : ∀ a, (![0, 0] : Fin 2 → Nat) a + S2x64.size a ≤ S2x64.size a
  h_S2x64 : 0 < S2x64.numel
  transposes_S64x64_p1_0_S64x64 : S64x64.Transposes [1, 0] S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  transposes_S2x64_p1_0_S64x2 : S2x64.Transposes [1, 0] S64x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  scatter_S100000_S800000x1_S800000_n_0_0_1_wf : ScatterDims.WF S100000 S800000x1 S800000 [] [0] [0] 1
  dot_S5000x64_S64x64_S5000x64_1_0_0_1_n_n_wf : DotDims.WF S5000x64 S64x64 S5000x64 [1] [0] [0] [1] [] []
  dot_S5000x64_S64x2_S5000x2_1_0_0_1_n_n_wf : DotDims.WF S5000x64 S64x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x64.size a ≤ S2x64.size a
  hwx0_5 : ∀ i : grid0.Coords, EltTy.bits .f32 = 32 ∨ (Rect.block (s := S2x64) S2x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2.size a ≤ S1x2.size a
  hwx0_6 : ∀ i : grid0.Coords, EltTy.bits .f32 = 32 ∨ (Rect.block (s := S1x2) S1x2.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x2.size a ≤ S100000x2.size a
  hwx0_7 : ∀ i : grid0.Coords, EltTy.bits .f32 = 32 ∨ (Rect.block (s := S100000x2) S5000x2.size (cc0_transform_7 i) (hinb0_7 i)).WholeWords (EltTy.packing .f32)

variable [Facts₀]

def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf

abbrev win0_0 : Pipeline.Window sig grid0 :=
  Pipeline.Window.ofSpec (Memref.whole main_v22) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S2x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S1x2.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25) S5000x2.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x800000 : Shape := ⟨2, ![2, 800000]⟩
abbrev S64x64 : Shape := ⟨2, ![64, 64]⟩
abbrev S64 : Shape := ⟨1, ![64]⟩
abbrev S2x64 : Shape := ⟨2, ![2, 64]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S100000 : Shape := ⟨1, ![100000]⟩
abbrev S100000x1 : Shape := ⟨2, ![100000, 1]⟩
abbrev S1x64 : Shape := ⟨2, ![1, 64]⟩
abbrev S64x2 : Shape := ⟨2, ![64, 2]⟩
abbrev S100000x2 : Shape := ⟨2, ![100000, 2]⟩
abbrev S1x2 : Shape := ⟨2, ![1, 2]⟩

abbrev nBuf : Space → Nat
  | .hbm => 52
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S2x64, .f32⟩
  | .hbm, ⟨6, _⟩ => ⟨S2, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x64, .f32⟩
  | .hbm, ⟨20, _⟩ => ⟨S_, .f32⟩
  | .hbm, ⟨21, _⟩ => ⟨S100000x64, .f32⟩
  | .hbm, ⟨22, _⟩ => ⟨S800000x1, .i32⟩
  | .hbm, ⟨23, _⟩ => ⟨S100000x64, .f32⟩
  | .hbm, ⟨24, _⟩ => ⟨S_, .f32⟩
  | .hbm, ⟨25, _⟩ => ⟨S800000, .f32⟩
  | .hbm, ⟨26, _⟩ => ⟨S_, .f32⟩
  | .hbm, ⟨27, _⟩ => ⟨S100000, .f32⟩
  | .hbm, ⟨28, _⟩ => ⟨S800000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x64, .f32⟩
  | .hbm, ⟨35, _⟩ => ⟨S100000x64, .f32⟩
  | .hbm, ⟨36, _⟩ => ⟨S64x64, .f32⟩
  | .hbm, ⟨37, _⟩ => ⟨S100000x64, .f32⟩
  | .hbm, ⟨38, _⟩ => ⟨S1x64, .f32⟩
  | .hbm, ⟨39, _⟩ => ⟨S100000x64, .f32⟩
  | .hbm, ⟨40, _⟩ => ⟨S100000x64, .f32⟩
  | .hbm, ⟨41, _⟩ => ⟨S64x64, .f32⟩
  | .hbm, ⟨42, _⟩ => ⟨S100000x64, .f32⟩
  | .hbm, ⟨43, _⟩ => ⟨S100000x64, .f32⟩
  | .hbm, ⟨44, _⟩ => ⟨S_, .f32⟩
  | .hbm, ⟨45, _⟩ => ⟨S100000x64, .f32⟩
  | .hbm, ⟨46, _⟩ => ⟨S100000x64, .f32⟩
  | .hbm, ⟨47, _⟩ => ⟨S64x2, .f32⟩
  | .hbm, ⟨48, _⟩ => ⟨S100000x2, .f32⟩
  | .hbm, ⟨49, _⟩ => ⟨S1x2, .f32⟩
  | .hbm, ⟨50, _⟩ => ⟨S100000x2, .f32⟩
  | .hbm, ⟨51, _⟩ => ⟨S100000x2, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_call0_cst : Ref sig .tc := ⟨.hbm, 44, rfl⟩
abbrev main_call0_v0 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S2x64_S64x2_1_0 : S2x64.Transposes [1, 0] S64x2
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  scatter_S100000_S800000x1_S800000_n_0_0_1_wf : ScatterDims.WF S100000 S800000x1 S800000 [] [0] [0] 1
  dot_S100000x64_S64x64_S100000x64_1_0_0_1_n_n_wf : DotDims.WF S100000x64 S64x64 S100000x64 [1] [0] [0] [1] [] []
  dot_S100000x64_S64x2_S100000x2_1_0_0_1_n_n_wf : DotDims.WF S100000x64 S64x2 S100000x2 [1] [0] [0] [1] [] []

variable [Facts₀]

def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf

class Facts : Prop extends Facts₀ where

variable [Facts]
-- ==== Proof.LibPlainProduct.lean ====
/-
  A matrix product with one contracted axis, read at an entry over the extended reals: the kernel's product into a
  zero accumulator and the host's product are both the plain sum, over the contracted coordinate, of the left
  operand's row entry times the right operand's column entry — whatever formats the operands carry.
-/
import Idealize.ShloMosaic.Lib.ValueIdx
import Idealize.ShloMosaic.PureOps.Ideal.Laws

namespace Cert.PlainProduct

open Idealize.ShloMosaic Idealize.ShloMosaic.ValueIdx

variable {M K N : ℕ}

/-- The left operand is read at the output's row … -/
theorem lhs_row (j : (⟨2, ![M, N]⟩ : Shape).Idx) (q : (DotDims.plain M K N).contr.Idx) :
    ((DotDims.plain M K N).lhsIdx j q 0).val = (j 0).val := rfl
/-- … and the contracted coordinate; -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- the right operand at the contracted coordinate … -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and the output's column. -/
theorem rhs_col (j : (⟨2, ![M, N]⟩ : Shape).Idx) (q : (DotDims.plain M K N).contr.Idx) :
    ((DotDims.plain M K N).rhsIdx j q 1).val = (j 1).val := rfl

/-- The sum over the contraction's index set is the sum over the K values of its one coordinate. -/
theorem sum_contr {φ₁ φ₂ : FTy} (lhs : FVec Ideal ⟨2, ![M, K]⟩ φ₁) (rhs : FVec Ideal ⟨2, ![K, N]⟩ φ₂) (p : Fin M) (q : Fin N) :
    (∑ k : (DotDims.plain M K N).contr.Idx,
        lhs ((DotDims.plain M K N).lhsIdx (ix2 p q) k) * rhs ((DotDims.plain M K N).rhsIdx (ix2 p q) k))
      = ∑ x : Fin K, lhs (ix2 p x) * rhs (ix2 x q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

/-- The kernel's product into the zero accumulator, at (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    matmul (F := Ideal) (DotDims.plain M K N) prec lhs rhs (constant (F := Ideal) ⟨2, ![M, N]⟩ .f32 0x00000000#32) (ix2 p q)
      = ∑ x : Fin K, lhs (ix2 p x) * rhs (ix2 x q) :=
  (Ideal.matmul_constant_zero_apply (DotDims.plain M K N) prec lhs rhs (ix2 p q)).trans (sum_contr lhs rhs p q)

/-- The host's product, at (p, q). -/
theorem dotGeneral_apply {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral (F := Ideal) (DotDims.plain M K N) prec lhs rhs (ix2 p q)
      = ∑ x : Fin K, lhs (ix2 p x) * rhs (ix2 x q) := by
  simp only [Host.dotGeneral]
  exact (Ideal.dotGeneral_apply (DotDims.plain M K N) prec _ lhs rhs (ix2 p q)).trans (sum_contr lhs rhs p q)

/-- The product of an [M, K] array by a [K, N] array as one array: entry (p, q) is the sum over x of lhs (p, x) · rhs (x, q). -/
noncomputable def prod {φ₁ φ₂ : FTy} (lhs : FVec Ideal ⟨2, ![M, K]⟩ φ₁) (rhs : FVec Ideal ⟨2, ![K, N]⟩ φ₂) :
    FVec Ideal ⟨2, ![M, N]⟩ .f32 :=
  fun i => ∑ x : Fin K, lhs (ix2 (i 0) x) * rhs (ix2 x (i 1))

theorem prod_apply {φ₁ φ₂ : FTy} (lhs : FVec Ideal ⟨2, ![M, K]⟩ φ₁) (rhs : FVec Ideal ⟨2, ![K, N]⟩ φ₂) (p : Fin M) (q : Fin N) :
    prod lhs rhs (ix2 p q) = ∑ x : Fin K, lhs (ix2 p x) * rhs (ix2 x q) := rfl

/-- The host's product is that array. -/
theorem dotGeneral_eq_prod {φ₁ φ₂ : FTy} (prec : Option ContractPrecision)
    (lhs : FVec Ideal ⟨2, ![M, K]⟩ φ₁) (rhs : FVec Ideal ⟨2, ![K, N]⟩ φ₂) :
    Host.dotGeneral (F := Ideal) (DotDims.plain M K N) prec lhs rhs = prod lhs rhs := by
  funext i
  obtain ⟨p, q, rfl⟩ : ∃ (p : Fin M) (q : Fin N), i = ix2 p q := ⟨i 0, i 1, eq_ix2 i⟩
  exact dotGeneral_apply prec lhs rhs p q

end Cert.PlainProduct
-- ==== Proof.KernelTile.lean ====
/-
  One tile of the fused layer: what the kernel body stores at entry (p, q) of its 5000 × 2 output tile, over the
  extended reals.

  The body takes a 5000 × 64 tile of aggregated neighbour features and the matching tile of node features, the two
  64 × 64 hidden weight matrices, the 2 × 64 head matrix and the two biases as one-row arrays. Narrowing a value to a
  shorter float format changes nothing over the extended reals. Each weight matrix is transposed and then multiplied
  from the right into a zero accumulator, so each product at (p, k) is the sum over j of the tile's (p, j) entry times
  the weight matrix's (k, j) entry. The two hidden products are added, then the bias row (broadcast down the rows),
  the result is rectified against zero, multiplied with the transposed head matrix, and the head bias row is added.
-/
import proofs.«126802_j16913581212178_1_alg».proof.Proof.Gen.KernelIdeal.Skeleton
import proofs.«126802_j16913581212178_1_alg».proof.Proof.LibPlainProduct
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Tile

open Cert.KernelIdeal Cert.KernelIdeal.Gen Idealize.ShloMosaic Idealize.ShloMosaic.ValueIdx

/-- A row tile times a transposed 64 × 64 weight matrix, into a zero accumulator, at (p, k): the sum over j of the
    tile's (p, j) times the matrix's (k, j). -/
theorem hidden_product_apply (a : FVec Ideal S5000x64 .bf16) (w : FVec Ideal S64x64 .bf16) (p : Fin 5000) (k : Fin 64) :
    matmul (F := Ideal) dot_S5000x64_S64x64_S5000x64_1_0_0_1_n_n none a
        (transpose S64x64 [1, 0] w transposes_S64x64_p1_0_S64x64) (constant S5000x64 .f32 0x00000000#32) (ix2 p k)
      = ∑ j : Fin 64, a (ix2 p j) * w (ix2 k j) := by
  refine (Cert.PlainProduct.matmul_zero_apply (M := 5000) (K := 64) (N := 64) none a
    (transpose S64x64 [1, 0] w transposes_S64x64_p1_0_S64x64) p k).trans ?_
  refine Finset.sum_congr rfl fun j _ => ?_
  rw [transpose_ix2_apply]

/-- The rectified hidden tile times the transposed 2 × 64 head matrix, into a zero accumulator, at (p, q): the sum
    over k of the tile's (p, k) times the head matrix's (q, k). -/
theorem head_product_apply (z : FVec Ideal S5000x64 .bf16) (w : FVec Ideal S2x64 .bf16) (p : Fin 5000) (q : Fin 2) :
    matmul (F := Ideal) dot_S5000x64_S64x2_S5000x2_1_0_0_1_n_n none z
        (transpose S64x2 [1, 0] w transposes_S2x64_p1_0_S64x2) (constant S5000x2 .f32 0x00000000#32) (ix2 p q)
      = ∑ k : Fin 64, z (ix2 p k) * w (ix2 q k) := by
  refine (Cert.PlainProduct.matmul_zero_apply (M := 5000) (K := 64) (N := 2) none z
    (transpose S64x2 [1, 0] w transposes_S2x64_p1_0_S64x2) p q).trans ?_
  refine Finset.sum_congr rfl fun k _ => ?_
  rw [transpose_ix2_apply]

/-- The stored tile at (p, q). -/
theorem stored_apply (a x : Vec Ideal S5000x64 .f32) (wl wr : Vec Ideal S64x64 .f32) (wh : Vec Ideal S2x64 .f32)
    (bl : Vec Ideal S1x64 .f32) (bh : Vec Ideal S1x2 .f32) (p : Fin 5000) (q : Fin 2) :
    k0_pay1 (F := Ideal) a x wl wr wh bl bh (ix2 p q)
      = (∑ k : Fin 64, max ((∑ j : Fin 64, a (ix2 p j) * wl (ix2 k j)) + (∑ j : Fin 64, x (ix2 p j) * wr (ix2 k j))
            + bl (ix2 (0 : Fin 1) k)) 0 * wh (ix2 q k)) + bh (ix2 (0 : Fin 1) q) := by
  unfold k0_pay1
  dsimp only
  rw [shapeCast_self a, shapeCast_self bl, shapeCast_self bh, addf_apply, head_product_apply, broadcastTo_1b_ab_apply]
  refine congrArg₂ (· + ·) (Finset.sum_congr rfl fun k _ => ?_) rfl
  rw [truncf_apply, maximumf_apply, addf_apply, addf_apply, hidden_product_apply, hidden_product_apply,
    broadcastTo_1b_ab_apply, broadcast_apply]
  rw [Ideal.ofBits_def, Ideal.ofBits_zero_f32]
  rfl

end Cert.KernelIdeal.Tile

end
-- ==== Proof.BiasRows.lean ====
/-
  The two biases reach the call as one-row arrays: the host puts a unit axis in front of each bias vector and does
  nothing else to it, so entry (0, k) of the row is entry k of the vector.
-/
import proofs.«126802_j16913581212178_1_alg».proof.Proof.Gen.KernelIdeal.Frame
import Idealize.ShloMosaic.Lib.StableHlo.Run
import Idealize.ShloMosaic.Lib.ValueLayout

noncomputable section

namespace Cert.KernelIdeal.BiasRows

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

set_option maxRecDepth 8192 in
set_option maxHeartbeats 2000000 in
/-- The hidden bias as the call finds it: the bias vector with a unit axis in front. -/
theorem hidden_row (c : Dev nD) : (V m c main_v23 : S1x64.Idx → EReal)
    = shapeCast S1x64 (m ((c : Thread nD τ).loc main_arg3)) shapeCasts_S64_S1x64 := by
  dsimp only [V, hostOps0]
  after_results_simp <;> rfl

set_option maxRecDepth 8192 in
set_option maxHeartbeats 2000000 in
/-- The head bias as the call finds it: the bias vector with a unit axis in front. -/
theorem head_row (c : Dev nD) : (V m c main_v24 : S1x2.Idx → EReal)
    = shapeCast S1x2 (m ((c : Thread nD τ).loc main_arg6)) shapeCasts_S2_S1x2 := by
  dsimp only [V, hostOps0]
  after_results_simp <;> rfl

/-- Entry (0, k) of the hidden bias row is entry k of the bias vector. -/
theorem hidden_row_apply (c : Dev nD) (k : Fin 64) :
    (V m c main_v23 : S1x64.Idx → EReal) (ix2 (0 : Fin 1) k) = m ((c : Thread nD τ).loc main_arg3) (ix1 k) := by
  rw [hidden_row, shapeCast_a_1a_apply]

/-- Entry (0, o) of the head bias row is entry o of the bias vector. -/
theorem head_row_apply (c : Dev nD) (o : Fin 2) :
    (V m c main_v24 : S1x2.Idx → EReal) (ix2 (0 : Fin 1) o) = m ((c : Thread nD τ).loc main_arg6) (ix1 o) := by
  rw [head_row, shapeCast_a_1a_apply]

end Cert.KernelIdeal.BiasRows

end
-- ==== Proof.KernelBlocks.lean ====
/-
  How the call's windows sit on their arrays. The call runs over twenty points; at point t the two feature windows
  and the result window are on block row t (rows 5000·t … 5000·t + 4999), and the three weight matrices and the two
  bias rows are each one block, seen whole at every point. Each fact is stated for an arbitrary array in the window's
  place, so that nothing about the array's contents is looked at.
-/
import proofs.«126802_j16913581212178_1_alg».proof.Proof.Gen.KernelIdeal.Frame
import proofs.«126802_j16913581212178_1_alg».proof.Proof.Gen.KernelIdeal.Points
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx

/-- Which block each window is on at point t. -/
theorem idx_facts : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- There are twenty points. -/
theorem point_lt (t : Fin cfg0.N) : t.val < 20 := by
  have h := t.isLt
  have hN : cfg0.N = 20 := N_0
  omega

/-- Row p of point t's block is row 5000·t + p of the array. -/
theorem row_lt (t : Fin cfg0.N) (p : Fin 5000) : t.val * 5000 + p.val < 100000 := by
  have := point_lt t; have := p.isLt; omega

/-- The aggregated-features window at point t: entry (p, j) of its block is entry (5000·t + p, j) of its array. -/
theorem agg_block (t : Fin cfg0.N) (A : Vec Ideal S100000x64 .f32) (p : Fin 5000) (j : Fin 64) :
    ((cfg0.win 0).blk t).view.read (Elt Ideal) A (ix2 p j) = A (ix2 (⟨t.val * 5000 + p.val, row_lt t p⟩ : Fin 100000) j) := by
  obtain ⟨e00, e01, -⟩ := idx_facts t
  show A (((cfg0.win 0).blk t).view.emb (ix2 p j)) = _
  refine congrArg A (funext fun a => Fin.ext ?_)
  match a with
  | ⟨0, _⟩ => show win0_0.index t (0 : Fin 2) * 5000 + 1 * p.val = t.val * 5000 + p.val; omega
  | ⟨1, _⟩ => show win0_0.index t (1 : Fin 2) * 64 + 1 * j.val = j.val; omega

/-- The node-features window likewise. -/
theorem feat_block (t : Fin cfg0.N) (A : Vec Ideal S100000x64 .f32) (p : Fin 5000) (j : Fin 64) :
    ((cfg0.win 1).blk t).view.read (Elt Ideal) A (ix2 p j) = A (ix2 (⟨t.val * 5000 + p.val, row_lt t p⟩ : Fin 100000) j) := by
  obtain ⟨-, -, e10, e11, -⟩ := idx_facts t
  show A (((cfg0.win 1).blk t).view.emb (ix2 p j)) = _
  refine congrArg A (funext fun a => Fin.ext ?_)
  match a with
  | ⟨0, _⟩ => show win0_1.index t (0 : Fin 2) * 5000 + 1 * p.val = t.val * 5000 + p.val; omega
  | ⟨1, _⟩ => show win0_1.index t (1 : Fin 2) * 64 + 1 * j.val = j.val; omega

/-- The neighbour weights are seen whole. -/
theorem neigh_weights_block (t : Fin cfg0.N) (A : Vec Ideal S64x64 .f32) (k j : Fin 64) :
    ((cfg0.win 2).blk t).view.read (Elt Ideal) A (ix2 k j) = A (ix2 k j) := by
  obtain ⟨-, -, -, -, e20, e21, -⟩ := idx_facts t
  show A (((cfg0.win 2).blk t).view.emb (ix2 k j)) = _
  refine congrArg A (funext fun a => Fin.ext ?_)
  match a with
  | ⟨0, _⟩ => show win0_2.index t (0 : Fin 2) * 64 + 1 * k.val = k.val; omega
  | ⟨1, _⟩ => show win0_2.index t (1 : Fin 2) * 64 + 1 * j.val = j.val; omega

/-- The hidden bias row is seen whole. -/
theorem bias_block (t : Fin cfg0.N) (A : Vec Ideal S1x64 .f32) (k : Fin 64) :
    ((cfg0.win 3).blk t).view.read (Elt Ideal) A (ix2 (0 : Fin 1) k) = A (ix2 (0 : Fin 1) k) := by
  obtain ⟨-, -, -, -, -, -, e30, e31, -⟩ := idx_facts t
  show A (((cfg0.win 3).blk t).view.emb (ix2 (0 : Fin 1) k)) = _
  refine congrArg A (funext fun a => Fin.ext ?_)
  match a with
  | ⟨0, _⟩ => show win0_3.index t (0 : Fin 2) * 1 + 1 * 0 = 0; omega
  | ⟨1, _⟩ => show win0_3.index t (1 : Fin 2) * 64 + 1 * k.val = k.val; omega

/-- The self weights are seen whole. -/
theorem self_weights_block (t : Fin cfg0.N) (A : Vec Ideal S64x64 .f32) (k j : Fin 64) :
    ((cfg0.win 4).blk t).view.read (Elt Ideal) A (ix2 k j) = A (ix2 k j) := by
  obtain ⟨-, -, -, -, -, -, -, -, e40, e41, -⟩ := idx_facts t
  show A (((cfg0.win 4).blk t).view.emb (ix2 k j)) = _
  refine congrArg A (funext fun a => Fin.ext ?_)
  match a with
  | ⟨0, _⟩ => show win0_4.index t (0 : Fin 2) * 64 + 1 * k.val = k.val; omega
  | ⟨1, _⟩ => show win0_4.index t (1 : Fin 2) * 64 + 1 * j.val = j.val; omega

/-- The head weights are seen whole. -/
theorem head_weights_block (t : Fin cfg0.N) (A : Vec Ideal S2x64 .f32) (o : Fin 2) (k : Fin 64) :
    ((cfg0.win 5).blk t).view.read (Elt Ideal) A (ix2 o k) = A (ix2 o k) := by
  obtain ⟨-, -, -, -, -, -, -, -, -, -, e50, e51, -⟩ := idx_facts t
  show A (((cfg0.win 5).blk t).view.emb (ix2 o k)) = _
  refine congrArg A (funext fun a => Fin.ext ?_)
  match a with
  | ⟨0, _⟩ => show win0_5.index t (0 : Fin 2) * 2 + 1 * o.val = o.val; omega
  | ⟨1, _⟩ => show win0_5.index t (1 : Fin 2) * 64 + 1 * k.val = k.val; omega

/-- The head bias row is seen whole. -/
theorem head_bias_block (t : Fin cfg0.N) (A : Vec Ideal S1x2 .f32) (o : Fin 2) :
    ((cfg0.win 6).blk t).view.read (Elt Ideal) A (ix2 (0 : Fin 1) o) = A (ix2 (0 : Fin 1) o) := by
  obtain ⟨-, -, -, -, -, -, -, -, -, -, -, -, e60, e61, -⟩ := idx_facts t
  show A (((cfg0.win 6).blk t).view.emb (ix2 (0 : Fin 1) o)) = _
  refine congrArg A (funext fun a => Fin.ext ?_)
  match a with
  | ⟨0, _⟩ => show win0_6.index t (0 : Fin 2) * 1 + 1 * 0 = 0; omega
  | ⟨1, _⟩ => show win0_6.index t (1 : Fin 2) * 2 + 1 * o.val = o.val; omega

/-- The result window at point t: a tile P written back is block t of an array G as soon as entry (p, q) of P is
    entry (5000·t + p, q) of G. -/
theorem result_block (t : Fin cfg0.N) (P : Vec Ideal S5000x2 .f32) (G : Vec Ideal S100000x2 .f32)
    (h : ∀ (p : Fin 5000) (q : Fin 2), P (ix2 p q) = G (ix2 (⟨t.val * 5000 + p.val, row_lt t p⟩ : Fin 100000) q)) :
    (cfg0.win 7).cut (grid0.coords t) P = ((cfg0.win 7).blk t).view.read (Elt Ideal) G := by
  obtain ⟨-, -, -, -, -, -, -, -, -, -, -, -, -, -, e70, e71⟩ := idx_facts t
  funext y
  obtain ⟨p, q, rfl⟩ : ∃ (p : Fin 5000) (q : Fin 2), y = ix2 p q := ⟨y 0, y 1, eq_ix2 (n0 := 5000) (n1 := 2) y⟩
  have hemb : ((cfg0.win 7).blk t).view.emb (ix2 p q) = ix2 (⟨t.val * 5000 + p.val, row_lt t p⟩ : Fin 100000) q := by
    funext a; apply Fin.ext
    match a with
    | ⟨0, _⟩ => show win0_7.index t (0 : Fin 2) * 5000 + 1 * p.val = t.val * 5000 + p.val; omega
    | ⟨1, _⟩ => show win0_7.index t (1 : Fin 2) * 2 + 1 * q.val = q.val; omega
  show P (ix2 p q) = G (((cfg0.win 7).blk t).view.emb (ix2 p q))
  rw [hemb]
  exact h p q

end Cert.KernelIdeal.Blocks

end
-- ==== Proof.SageSpec.lean ====
/-
  One mean-aggregating graph-convolution layer followed by a linear head, as a function on the extended reals.

  For a node r with aggregated neighbour features agg(r, ·) and own features x(r, ·), hidden unit k is
      h(r, k) = Σ_j agg(r, j) · Wl(k, j)  +  Σ_j x(r, j) · Wr(k, j)  +  bl(k),
  it is rectified, max(h(r, k), 0), and output column o of node r is
      out(r, o) = Σ_k max(h(r, k), 0) · Wh(o, k)  +  bh(o).
  The weight matrices are stored row-per-output-unit, so each product contracts the second coordinate of both
  factors (a product with the transposed matrix).

  The three summands of h may be added in either order: addition on the extended reals is commutative and
  associative at every value, the infinities included, so no finiteness is needed for that.
-/
import Idealize.ShloMosaic.Lib.ValueIdx
import Idealize.ShloMosaic.PureOps.Ideal

noncomputable section

namespace Cert.Sage

open Idealize.ShloMosaic Idealize.ShloMosaic.ValueIdx

/-- Node features, and the aggregated neighbour features: one row of 64 per node. -/
abbrev SNodes : Shape := ⟨2, ![100000, 64]⟩
/-- A hidden-layer weight matrix: row k holds the weights of hidden unit k. -/
abbrev SWeight : Shape := ⟨2, ![64, 64]⟩
/-- The hidden layer's bias. -/
abbrev SBias : Shape := ⟨1, ![64]⟩
/-- The head's weight matrix: row o holds the weights of output column o. -/
abbrev SHeadW : Shape := ⟨2, ![2, 64]⟩
/-- The head's bias. -/
abbrev SHeadB : Shape := ⟨1, ![2]⟩
/-- The result: two columns per node. -/
abbrev SOut : Shape := ⟨2, ![100000, 2]⟩

/-- Hidden unit k of node r before the rectifier. -/
def hidden (agg x : SNodes.Idx → EReal) (Wl : SWeight.Idx → EReal) (bl : SBias.Idx → EReal) (Wr : SWeight.Idx → EReal)
    (r : Fin 100000) (k : Fin 64) : EReal :=
  (∑ j : Fin 64, agg (ix2 r j) * Wl (ix2 k j)) + (∑ j : Fin 64, x (ix2 r j) * Wr (ix2 k j)) + bl (ix1 k)

/-- The layer and the head: entry (r, o) of the result. -/
def out (agg x : SNodes.Idx → EReal) (Wl : SWeight.Idx → EReal) (bl : SBias.Idx → EReal) (Wr : SWeight.Idx → EReal)
    (Wh : SHeadW.Idx → EReal) (bh : SHeadB.Idx → EReal) : SOut.Idx → EReal :=
  fun i => (∑ k : Fin 64, max (hidden agg x Wl bl Wr (i 0) k) 0 * Wh (ix2 (i 1) k)) + bh (ix1 (i 1))

theorem out_apply (agg x : SNodes.Idx → EReal) (Wl : SWeight.Idx → EReal) (bl : SBias.Idx → EReal) (Wr : SWeight.Idx → EReal)
    (Wh : SHeadW.Idx → EReal) (bh : SHeadB.Idx → EReal) (r : Fin 100000) (o : Fin 2) :
    out agg x Wl bl Wr Wh bh (ix2 r o)
      = (∑ k : Fin 64, max (hidden agg x Wl bl Wr r k) 0 * Wh (ix2 o k)) + bh (ix1 o) := rfl

/-- The bias may be added before the self term instead of after it. -/
theorem hidden_bias_first (agg x : SNodes.Idx → EReal) (Wl : SWeight.Idx → EReal) (bl : SBias.Idx → EReal) (Wr : SWeight.Idx → EReal)
    (r : Fin 100000) (k : Fin 64) :
    (∑ j : Fin 64, agg (ix2 r j) * Wl (ix2 k j)) + bl (ix1 k) + (∑ j : Fin 64, x (ix2 r j) * Wr (ix2 k j))
      = hidden agg x Wl bl Wr r k :=
  add_right_comm _ _ _

end Cert.Sage

end
-- ==== Proof.KernelArray.lean ====
/-
  From tiles to the whole result. The call runs over twenty points; point t works on rows 5000·t … 5000·t + 4999 of the
  aggregated features and of the node features, sees the three weight matrices and the two bias rows whole, and
  writes rows 5000·t … 5000·t + 4999 of the two-column result. Entry (p, q) of the tile stored at point t is therefore
  entry (5000·t + p, q) of the layer-and-head function of the whole arrays, the twenty tiles cover every row once,
  and the array the call leaves is that function of the arrays it was launched on.
-/
import proofs.«126802_j16913581212178_1_alg».proof.Proof.Gen.KernelIdeal.Value
import proofs.«126802_j16913581212178_1_alg».proof.Proof.KernelTile
import proofs.«126802_j16913581212178_1_alg».proof.Proof.BiasRows
import proofs.«126802_j16913581212178_1_alg».proof.Proof.KernelBlocks
import proofs.«126802_j16913581212178_1_alg».proof.Proof.SageSpec

noncomputable section

namespace Cert.KernelIdeal.Layer

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- Every load and the one store of the body start at the tile's origin. -/
theorem zero_offsets : (![0, 0] : Fin 2 → Nat) = fun _ => 0 := funext fun a => by fin_cases a <;> rfl

/-- The whole result array: the layer and head of the aggregated features as the call finds them, of the node
    features, and of the weights and biases as launched. -/
def result (c : Dev nD) : S100000x2.Idx → EReal :=
  Cert.Sage.out (V m c main_v22) (m ((c : Thread nD τ).loc main_arg0)) (m ((c : Thread nD τ).loc main_arg2))
    (m ((c : Thread nD τ).loc main_arg3)) (m ((c : Thread nD τ).loc main_arg4)) (m ((c : Thread nD τ).loc main_arg5))
    (m ((c : Thread nD τ).loc main_arg6))

/-- Entry (p, q) of a stored tile is entry (r, q) of the layer and head of whole arrays, when the tile's feature rows
    p are the arrays' rows r, its weight blocks are the weight matrices, and its bias rows hold the bias vectors. -/
theorem tile_entry (agg xs : Vec Ideal S100000x64 .f32) (Wl Wr : Vec Ideal S64x64 .f32) (Wh : Vec Ideal S2x64 .f32)
    (b3 : Vec Ideal S64 .f32) (b6 : Vec Ideal S2 .f32)
    (a x : Vec Ideal S5000x64 .f32) (wl wr : Vec Ideal S64x64 .f32) (wh : Vec Ideal S2x64 .f32)
    (bl : Vec Ideal S1x64 .f32) (bh : Vec Ideal S1x2 .f32) (p : Fin 5000) (q : Fin 2) (r : Fin 100000)
    (ha : ∀ j : Fin 64, a (ix2 p j) = agg (ix2 r j)) (hx : ∀ j : Fin 64, x (ix2 p j) = xs (ix2 r j))
    (hwl : ∀ k j : Fin 64, wl (ix2 k j) = Wl (ix2 k j)) (hwr : ∀ k j : Fin 64, wr (ix2 k j) = Wr (ix2 k j))
    (hwh : ∀ (o : Fin 2) (k : Fin 64), wh (ix2 o k) = Wh (ix2 o k))
    (hbl : ∀ k : Fin 64, bl (ix2 (0 : Fin 1) k) = b3 (ix1 k)) (hbh : ∀ o : Fin 2, bh (ix2 (0 : Fin 1) o) = b6 (ix1 o)) :
    k0_pay1 (F := Ideal) a x wl wr wh bl bh (ix2 p q) = Cert.Sage.out agg xs Wl b3 Wr Wh b6 (ix2 r q) := by
  rw [Cert.KernelIdeal.Tile.stored_apply, Cert.Sage.out_apply]
  unfold Cert.Sage.hidden
  simp only [ha, hx, hwl, hwr, hwh, hbl, hbh]

/-- Every block row of the result is some point's. -/
theorem idx_onto : ∀ b : Fin 20, ∃ t : Fin cfg0.N, win0_7.index t = ![b.val, 0] :=
  (by decide +kernel : ∀ b : Fin 20, ∃ t : Fin grid0.N, win0_7.index t = ![b.val, 0])

/-! ## Each window's block at a point is a block of the array the call was launched on -/

theorem agg_window (c : Dev nD) (t : Fin cfg0.N) :
    iblk m c 0 t = ((cfg0.win 0).blk t).view.read (Elt Ideal) (V m c main_v22) := rfl
theorem feat_window (c : Dev nD) (t : Fin cfg0.N) :
    iblk m c 1 t = ((cfg0.win 1).blk t).view.read (Elt Ideal) (V m c main_arg0) := rfl
theorem neigh_weights_window (c : Dev nD) (t : Fin cfg0.N) :
    iblk m c 2 t = ((cfg0.win 2).blk t).view.read (Elt Ideal) (V m c main_arg2) := rfl
theorem bias_window (c : Dev nD) (t : Fin cfg0.N) :
    iblk m c 3 t = ((cfg0.win 3).blk t).view.read (Elt Ideal) (V m c main_v23) := rfl
theorem self_weights_window (c : Dev nD) (t : Fin cfg0.N) :
    iblk m c 4 t = ((cfg0.win 4).blk t).view.read (Elt Ideal) (V m c main_arg4) := rfl
theorem head_weights_window (c : Dev nD) (t : Fin cfg0.N) :
    iblk m c 5 t = ((cfg0.win 5).blk t).view.read (Elt Ideal) (V m c main_arg5) := rfl
theorem head_bias_window (c : Dev nD) (t : Fin cfg0.N) :
    iblk m c 6 t = ((cfg0.win 6).blk t).view.read (Elt Ideal) (V m c main_v24) := rfl

/-- What point t writes back is block t of the whole result. -/
theorem flushed_eq (c : Dev nD) (t : Fin cfg0.N) :
    (dats m 0 c).flushed 7 t = ((cfg0.win 7).blk t).view.read (Elt Ideal) (result m c) := by
  rw [Cert.KernelIdeal.Value.flushed7]
  unfold out0_7
  rw [View.canon_unit_zero zero_offsets]
  simp only [View.ld_unit_zero (S := S5000x64) zero_offsets, View.ld_unit_zero (S := S64x64) zero_offsets,
    View.ld_unit_zero (S := S2x64) zero_offsets, View.ld_unit_zero (S := S1x64) zero_offsets,
    View.ld_unit_zero (S := S1x2) zero_offsets]
  rw [agg_window, feat_window, neigh_weights_window, bias_window, self_weights_window, head_weights_window,
    head_bias_window, V_main_arg0, V_main_arg2, V_main_arg4, V_main_arg5]
  refine Cert.KernelIdeal.Blocks.result_block t _ (result m c) (fun p q => ?_)
  unfold result
  refine tile_entry (V m c main_v22) (m ((c : Thread nD τ).loc main_arg0)) (m ((c : Thread nD τ).loc main_arg2))
    (m ((c : Thread nD τ).loc main_arg4)) (m ((c : Thread nD τ).loc main_arg5)) (m ((c : Thread nD τ).loc main_arg3))
    (m ((c : Thread nD τ).loc main_arg6)) _ _ _ _ _ _ _ p q ⟨t.val * 5000 + p.val, Cert.KernelIdeal.Blocks.row_lt t p⟩
    ?_ ?_ ?_ ?_ ?_ ?_ ?_
  · exact fun j => Cert.KernelIdeal.Blocks.agg_block t (V m c main_v22) p j
  · exact fun j => Cert.KernelIdeal.Blocks.feat_block t (m ((c : Thread nD τ).loc main_arg0)) p j
  · exact fun k j => Cert.KernelIdeal.Blocks.neigh_weights_block t (m ((c : Thread nD τ).loc main_arg2)) k j
  · exact fun k j => Cert.KernelIdeal.Blocks.self_weights_block t (m ((c : Thread nD τ).loc main_arg4)) k j
  · exact fun o k => Cert.KernelIdeal.Blocks.head_weights_block t (m ((c : Thread nD τ).loc main_arg5)) o k
  · exact fun k => (Cert.KernelIdeal.Blocks.bias_block t (V m c main_v23) k).trans
      (Cert.KernelIdeal.BiasRows.hidden_row_apply m c k)
  · exact fun o => (Cert.KernelIdeal.Blocks.head_bias_block t (V m c main_v24) o).trans
      (Cert.KernelIdeal.BiasRows.head_row_apply m c o)

/-- An index of the result is in point t's block iff each coordinate is in the block's range on its axis. -/
theorem mem_blk (t : Fin cfg0.N) (i : S100000x2.Idx) :
    i ∈ ((cfg0.win 7).blk t).view.set ↔ ∀ a : Fin 2, win0_7.index t a * S5000x2.size a ≤ (i a).val ∧ (i a).val < win0_7.index t a * S5000x2.size a + S5000x2.size a := by
  show i ∈ ((View.whole main_v25).slice (win0_7.rect t)).set ↔ _
  rw [View.set_slice_whole, Rect.mem_set_unit]
  exact Iff.rfl

/-- Every entry of the result lies in the block of the point its row falls to, row / 5000. -/
theorem covered (i : S100000x2.Idx) :
    ∃ t : Fin cfg0.N, (cfg0.win 7).flush t = true ∧ i ∈ ((cfg0.win 7).blk t).view.set := by
  have hi0 : (i 0).val < 100000 := (i 0).isLt
  have hi1 : (i 1).val < 2 := (i 1).isLt
  obtain ⟨t, ht⟩ := idx_onto ⟨(i 0).val / 5000, by omega⟩
  have q0 : win0_7.index t (0 : Fin 2) = (i 0).val / 5000 := congrFun ht 0
  have q1 : win0_7.index t (1 : Fin 2) = 0 := congrFun ht 1
  refine ⟨t, flush0_7 t, ?_⟩
  rw [mem_blk]
  intro a
  match a with
  | ⟨0, _⟩ => show win0_7.index t (0 : Fin 2) * 5000 ≤ (i 0).val ∧ (i 0).val < win0_7.index t (0 : Fin 2) * 5000 + 5000; omega
  | ⟨1, _⟩ => show win0_7.index t (1 : Fin 2) * 2 ≤ (i 1).val ∧ (i 1).val < win0_7.index t (1 : Fin 2) * 2 + 2; omega

/-- The array the call leaves is the whole result. -/
theorem final (c : Dev nD) : (dats m 0 c).arrAt 7 cfg0.N = result m c :=
  (dats m 0 c).arrAt_eq_of_cover 7 (result m c) (fun t _ => flushed_eq m c t) covered

/-- Every run of the program ends with the result array at the layer and head of what the call was launched on, the
    arguments unchanged. -/
theorem run : θ_run defs (onTc (τ := τ) (main (F := Ideal))) ⟨m, fun _ => 0, ρ⟩ fun r => ∀ c : Dev nD,
      r.2.mem ((c : Thread nD τ).loc main_v25) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩)
    (Cert.KernelIdeal.Value.run_blocks m ρ)

end Cert.KernelIdeal.Layer

end
-- ==== Proof.RefLayer.lean ====
/-
  The reference program's result, entry by entry, is the layer-and-head function of its own aggregated neighbour
  features: reading its operations one at a time, entry (r, o) is the head product of the rectified hidden units of
  node r plus the head bias, and hidden unit k is the neighbour product plus the bias plus the self product, the
  weight matrices transposed first and then contracted along their first coordinate. That is the specification's
  hidden unit with the bias added before the self term, which is the same extended real.
-/
import proofs.«126802_j16913581212178_1_alg».proof.Proof.Gen.ReferenceIdeal.Read
import proofs.«126802_j16913581212178_1_alg».proof.Proof.SageSpec
import Idealize.ShloMosaic.PureOps.Ideal.Laws

noncomputable section

namespace Cert.ReferenceIdeal.Layer

open Cert.ReferenceIdeal Cert.ReferenceIdeal.Read Idealize.ShloMosaic Idealize.ShloMosaic.ValueIdx

/-! ## Where each operation reads its operands -/

/-- The head product reads the rectified hidden array along node r's row … -/
theorem head_lhs (r : Fin 100000) (o : Fin 2) (k : Fin 64) : lidx_main_v33 (ix2 r o) k = ix2 r k :=
  funext fun a => Fin.ext (by match a with | ⟨0, _⟩ => rfl | ⟨1, _⟩ => rfl)
/-- … and the transposed head matrix down column o, -/
theorem head_rhs (r : Fin 100000) (o : Fin 2) (k : Fin 64) : ridx_main_v33 (ix2 r o) k = ix2 k o :=
  funext fun a => Fin.ext (by match a with | ⟨0, _⟩ => rfl | ⟨1, _⟩ => rfl)
/-- which is row o of the head matrix itself. -/
theorem head_transposed (k : Fin 64) (o : Fin 2) : idx_main_v32 (ix2 k o) = ix2 o k :=
  funext fun a => Fin.ext (by match a with | ⟨0, _⟩ => rfl | ⟨1, _⟩ => rfl)
/-- The neighbour product reads the aggregated features along node r's row … -/
theorem neigh_lhs (r : Fin 100000) (k j : Fin 64) : lidx_main_v24 (ix2 r k) j = ix2 r j :=
  funext fun a => Fin.ext (by match a with | ⟨0, _⟩ => rfl | ⟨1, _⟩ => rfl)
/-- … and the transposed neighbour weights down column k, -/
theorem neigh_rhs (r : Fin 100000) (k j : Fin 64) : ridx_main_v24 (ix2 r k) j = ix2 j k :=
  funext fun a => Fin.ext (by match a with | ⟨0, _⟩ => rfl | ⟨1, _⟩ => rfl)
/-- which is row k of the neighbour weights. -/
theorem neigh_transposed (j k : Fin 64) : idx_main_v23 (ix2 j k) = ix2 k j :=
  funext fun a => Fin.ext (by match a with | ⟨0, _⟩ => rfl | ⟨1, _⟩ => rfl)
/-- The self product reads the node features along node r's row … -/
theorem self_lhs (r : Fin 100000) (k j : Fin 64) : lidx_main_v29 (ix2 r k) j = ix2 r j :=
  funext fun a => Fin.ext (by match a with | ⟨0, _⟩ => rfl | ⟨1, _⟩ => rfl)
/-- … and the transposed self weights down column k, -/
theorem self_rhs (r : Fin 100000) (k j : Fin 64) : ridx_main_v29 (ix2 r k) j = ix2 j k :=
  funext fun a => Fin.ext (by match a with | ⟨0, _⟩ => rfl | ⟨1, _⟩ => rfl)
/-- which is row k of the self weights. -/
theorem self_transposed (j k : Fin 64) : idx_main_v28 (ix2 j k) = ix2 k j :=
  funext fun a => Fin.ext (by match a with | ⟨0, _⟩ => rfl | ⟨1, _⟩ => rfl)
/-- The hidden bias, broadcast first to one row and then down the nodes, is read at its entry k. -/
theorem bias_entry (r : Fin 100000) (k : Fin 64) : idx_main_v25 (idx_main_v26 (ix2 r k)) = ix1 k :=
  funext fun a => Fin.ext (by match a with | ⟨0, _⟩ => rfl)
/-- The head bias likewise at its entry o. -/
theorem head_bias_entry (r : Fin 100000) (o : Fin 2) : idx_main_v34 (idx_main_v35 (ix2 r o)) = ix1 o :=
  funext fun a => Fin.ext (by match a with | ⟨0, _⟩ => rfl)

/-! ## The result -/

/-- The reference's result is the layer and head applied to its aggregated neighbour features. -/
theorem result_eq (x0 : (⟨S100000x64, .f32⟩ : BufTy).Contents (Elt Ideal)) (x1 : (⟨S2x800000, .i32⟩ : BufTy).Contents (Elt Ideal))
    (x2 : (⟨S64x64, .f32⟩ : BufTy).Contents (Elt Ideal)) (x3 : (⟨S64, .f32⟩ : BufTy).Contents (Elt Ideal))
    (x4 : (⟨S64x64, .f32⟩ : BufTy).Contents (Elt Ideal)) (x5 : (⟨S2x64, .f32⟩ : BufTy).Contents (Elt Ideal))
    (x6 : (⟨S2, .f32⟩ : BufTy).Contents (Elt Ideal)) :
    val_main_v36 (F := Ideal) x0 x1 x2 x3 x4 x5 x6
      = Cert.Sage.out (val_main_v22 (F := Ideal) x0 x1) x0 x2 x3 x4 x5 x6 := by
  funext i
  obtain ⟨r, o, rfl⟩ : ∃ (r : Fin 100000) (o : Fin 2), i = ix2 r o := ⟨i 0, i 1, eq_ix2 i⟩
  rw [Cert.Sage.out_apply, val_main_v36_apply, val_main_v33_apply, val_main_v35_apply, val_main_v34_apply, head_bias_entry]
  refine congrArg₂ (· + ·) (Finset.sum_congr rfl fun k _ => ?_) rfl
  rw [head_lhs, head_rhs, val_main_v32_apply, head_transposed, val_main_v31_apply, val_main_v30_apply,
    val_main_v27_apply, val_main_v24_apply, val_main_v29_apply, val_main_v26_apply, val_main_v25_apply, bias_entry,
    val_main_call0_v0_apply, val_main_call0_cst_apply]
  simp only [neigh_lhs, neigh_rhs, self_lhs, self_rhs, val_main_v23_apply, val_main_v28_apply, neigh_transposed,
    self_transposed, Ideal.addf_def, Ideal.maximumf_def, Ideal.ofBits_def, Ideal.ofBits_zero_f32]
  rw [Cert.Sage.hidden_bias_first]

end Cert.ReferenceIdeal.Layer

end
-- ==== Proof.AggSame.lean ====
/-
  Both programs aggregate in the same way before anything else happens: they take the source and destination rows of
  the edge list, gather the source nodes' feature rows, add them up per destination node, count the edges per
  destination node, and divide each sum by the count (at least one). The kernel program does this on the host before
  its call; the reference does it as its first stage. Operation by operation the two texts are the same, so the array
  the call finds is the reference's aggregated-features stage of the same inputs.
-/
import proofs.«126802_j16913581212178_1_alg».proof.Proof.Gen.KernelIdeal.Frame
import proofs.«126802_j16913581212178_1_alg».proof.Proof.Gen.ReferenceIdeal.Read
import Idealize.ShloMosaic.Lib.StableHlo.Run

noncomputable section

namespace Cert.Aggregation

open Idealize.ShloMosaic Idealize.ShloMosaic.TcCoe Idealize.SL.Sem

set_option maxRecDepth 8192 in
set_option maxHeartbeats 2000000 in
/-- The aggregated neighbour features the call is launched on are the reference's, of the same node features and
    edge list. -/
theorem same (m : (ℓ : Loc Cert.KernelIdeal.nD Cert.KernelIdeal.τ Cert.KernelIdeal.sig) → Buf (Elt Ideal) ℓ)
    (c : Dev Cert.KernelIdeal.nD) :
    (Cert.KernelIdeal.Gen.V m c Cert.KernelIdeal.main_v22 : Cert.KernelIdeal.S100000x64.Idx → EReal)
      = Cert.ReferenceIdeal.Read.val_main_v22 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg1)) := by
  dsimp only [Cert.KernelIdeal.Gen.V, Cert.KernelIdeal.Gen.hostOps0]
  after_results_simp <;> rfl

end Cert.Aggregation

end
-- ==== Proof.lean ====
/-
  The kernel program and its reference compute one mean-aggregating graph-convolution layer followed by a linear head
  on 100000 nodes with 64 features each and 800000 edges:

      agg(r, ·) = (sum of x(s, ·) over the edges s → r) / max(number of edges into r, 1)
      h(r, k)   = Σ_j agg(r, j) · Wl(k, j) + Σ_j x(r, j) · Wr(k, j) + bl(k)
      out(r, o) = Σ_k max(h(r, k), 0) · Wh(o, k) + bh(o).

  Both programs form agg on the host by the same operations (two slices of the edge list, a row gather, two
  accumulating scatters, a maximum with one, a division), so the arrays they form are the same function of x and the
  edge list. The kernel program then runs one call over twenty row blocks of 5000 nodes: each block narrows its operands
  (the identity over the extended reals), multiplies the aggregated and the node features with the transposed weight
  matrices into zero accumulators, adds the two products and then the bias, rectifies, multiplies with the transposed
  head matrix and adds the head bias. The reference does the same on whole arrays, except that it adds the bias to the
  neighbour product before adding the self product. Addition on the extended reals is commutative and associative at
  every value, so the two hidden units are equal without any appeal to finiteness, and the precondition is not opened.

  The three frame claims are the programs' own runs: the two kernel programs' by the frame of the one call, the
  reference's by its straight-line run with the result dropped. The idealization rewrote nothing, so the kernel program
  read over the extended reals is its sanctioned idealization outright. For the value claim, the call's result array is
  assembled from its twenty stored tiles (each tile entry read off the body's arithmetic, the tiles covering every row
  once), and the reference's result is read operation by operation; both are the function above of the same inputs.
-/
import proofs.«126802_j16913581212178_1_alg».proof.Defs
import proofs.«126802_j16913581212178_1_alg».proof.Proof.Gen.Kernel
import proofs.«126802_j16913581212178_1_alg».proof.Proof.Gen.Kernel.Skeleton
import proofs.«126802_j16913581212178_1_alg».proof.Proof.Gen.Kernel.Launch
import proofs.«126802_j16913581212178_1_alg».proof.Proof.Gen.Kernel.Points
import proofs.«126802_j16913581212178_1_alg».proof.Proof.Gen.Kernel.Frame
import proofs.«126802_j16913581212178_1_alg».proof.Proof.Gen.KernelIdeal
import proofs.«126802_j16913581212178_1_alg».proof.Proof.Gen.KernelIdeal.Skeleton
import proofs.«126802_j16913581212178_1_alg».proof.Proof.Gen.KernelIdeal.Launch
import proofs.«126802_j16913581212178_1_alg».proof.Proof.Gen.KernelIdeal.Points
import proofs.«126802_j16913581212178_1_alg».proof.Proof.Gen.KernelIdeal.Frame
import proofs.«126802_j16913581212178_1_alg».proof.Proof.Gen.ReferenceIdeal
import proofs.«126802_j16913581212178_1_alg».proof.Proof.Gen.Pre_finite_inputs
import proofs.«126802_j16913581212178_1_alg».proof.Proof.Gen.KernelIdeal.Value
import proofs.«126802_j16913581212178_1_alg».proof.Proof.Gen.ReferenceIdeal.Run
import proofs.«126802_j16913581212178_1_alg».proof.Proof.Gen.ReferenceIdeal.Read
import proofs.«126802_j16913581212178_1_alg».proof.Proof.KernelArray
import proofs.«126802_j16913581212178_1_alg».proof.Proof.RefLayer
import proofs.«126802_j16913581212178_1_alg».proof.Proof.AggSame
import Idealize.ShloMosaic.Adequacy
import Idealize.ShloMosaic.Init

noncomputable section

namespace Cert.Proof

open Idealize.ShloMosaic Idealize.ShloMosaic.TcCoe Idealize.SL.Sem

/-- The kernel program, read at the word level, runs and leaves its arguments as they were. -/
theorem frame_kernel : Cert.frame_Kernel := fun m ρ _ => Cert.Kernel.Gen.frame m ρ

/-- So does the same program read over the extended reals. -/
theorem frame_kernel_ideal : Cert.frame_KernelIdeal := fun m ρ _ => Cert.KernelIdeal.Gen.frame m ρ

/-- The reference is a straight line of host operations: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the layer and head of the same aggregated features, node features, weights and biases. -/
theorem algebraic : Cert.algebraic_KernelIdeal_ReferenceIdeal := by
  intro m ρ m' ρ' _ hagree
  refine ⟨fun c => Cert.KernelIdeal.Layer.result m c, Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v36_eq, Cert.ReferenceIdeal.Layer.result_eq, a0, a1, a2, a3, a4, a5, a6]
  show _ = Cert.KernelIdeal.Layer.result m c
  unfold Cert.KernelIdeal.Layer.result
  rw [Cert.Aggregation.same m c]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
